-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S4096x4096 .f32) (main_arg2 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S4096x4096 : Shape := ⟨2, ![4096, 4096]⟩
abbrev S4096 : Shape := ⟨1, ![4096]⟩
abbrev S1024x4096 : Shape := ⟨2, ![1024, 4096]⟩
abbrev S1024 : Shape := ⟨1, ![1024]⟩
abbrev S1024x1 : Shape := ⟨2, ![1024, 1]⟩
abbrev S1x4096 : Shape := ⟨2, ![1, 4096]⟩
abbrev S4096x1024 : Shape := ⟨2, ![4096, 1024]⟩
abbrev S1x1024 : Shape := ⟨2, ![1, 1024]⟩
abbrev S1024x1024 : Shape := ⟨2, ![1024, 1024]⟩

abbrev nBuf : Space → Nat
  | .hbm => 7
  | .vmem => 12
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .bf16⟩
  | .hbm, ⟨4, _⟩ => ⟨S4096x4096, .bf16⟩
  | .hbm, ⟨5, _⟩ => ⟨S1x4096, .f32⟩
  | .hbm, ⟨6, _⟩ => ⟨S16384x4096, .f32⟩
  | .local _ .vmem, ⟨0, _⟩ => ⟨S1024x4096, .f32⟩
  | .local _ .vmem, ⟨1, _⟩ => ⟨S1024x4096, .f32⟩
  | .local _ .vmem, ⟨2, _⟩ => ⟨S1024x4096, .bf16⟩
  | .local _ .vmem, ⟨3, _⟩ => ⟨S1024x4096, .bf16⟩
  | .local _ .vmem, ⟨4, _⟩ => ⟨S1024x4096, .bf16⟩
  | .local _ .vmem, ⟨5, _⟩ => ⟨S1024x4096, .bf16⟩
  | .local _ .vmem, ⟨6, _⟩ => ⟨S4096x1024, .bf16⟩
  | .local _ .vmem, ⟨7, _⟩ => ⟨S4096x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  inb_S1024x4096_S1024x4096_0_0 : ∀ a, (![0, 0] : Fin 2 → Nat) a + S1024x4096.size a ≤ S1024x4096.size a
  h_S1024x4096 : 0 < S1024x4096.numel
  reduces_S1024x4096_S1024 : S1024x4096.Reduces [1] S1024
  shapeCasts_S1024_S1024x1 : S1024.ShapeCasts S1024x1
  broadcasts_S1024x1_S1024x4096 : S1024x1.Broadcasts S1024x4096
  bitsLt_bf16_f32 : FTy.bits .bf16 < FTy.bits .f32
  packedbf16_S1024x4096_S1024x4096_0_0 : (Rect.unit (s := S1024x4096) ![0, 0] S1024x4096.size inb_S1024x4096_S1024x4096_0_0).PackedRows (EltTy.packing .bf16)
  shapeCasts_S4096_S1x4096 : S4096.ShapeCasts S1x4096
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x4096_S4096x1024_S1024x1024_1_0_0_1_n_n_wf : DotDims.WF S1024x4096 S4096x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S16384x4096.size a
  hwx0_0 : ∀ i : grid0.Coords, EltTy.bits .f32 = 32 ∨ (Rect.block (s := S16384x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S16384x4096.size a
  hwx1_0 : ∀ i : grid1.Coords, EltTy.bits .bf16 = 32 ∨ (Rect.block (s := S16384x4096) S1024x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x1024.size a ≤ S4096x4096.size a
  hwx1_1 : ∀ i : grid1.Coords, EltTy.bits .bf16 = 32 ∨ (Rect.block (s := S4096x4096) S4096x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x4096.size a
  hwx1_3 : ∀ i : grid1.Coords, EltTy.bits .f32 = 32 ∨ (Rect.block (s := S16384x4096) S1024x1024.size (cc1_transform_3 i) (hinb1_3 i)).WholeWords (EltTy.packing .f32)

variable [Facts₀]

def dot_S1024x4096_S4096x1024_S1024x1024_1_0_0_1_n_n : DotDims S1024x4096 S4096x1024 S1024x1024 where
  lhsContracting := [1]
  rhsContracting := [0]
  lhsNonContracting := [0]
  rhsNonContracting := [1]
  lhsBatch := []
  rhsBatch := []
  wf := dot_S1024x4096_S4096x1024_S1024x1024_1_0_0_1_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v0) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4096x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S16384x4096 : Shape := ⟨2, ![16384, 4096]⟩
abbrev S4096x4096 : Shape := ⟨2, ![4096, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 20
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x4096, .f32⟩
  | .hbm, ⟨2, _⟩ => ⟨S4096, .f32⟩
  | .hbm, ⟨3, _⟩ => ⟨S16384x4096, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S1x4096, .f32⟩
  | .hbm, ⟨15, _⟩ => ⟨S16384x4096, .f32⟩
  | .hbm, ⟨16, _⟩ => ⟨S16384x4096, .f32⟩
  | .hbm, ⟨17, _⟩ => ⟨S_, .f32⟩
  | .hbm, ⟨18, _⟩ => ⟨S16384x4096, .f32⟩
  | .hbm, ⟨19, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_cst : Ref sig .tc := ⟨.hbm, 17, rfl⟩
abbrev main_call0_v0 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  reducesTo_S16384x4096_S16384_d1 : S16384x4096.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x4096_0_1 : S16384x1.BroadcastsInDim S16384x4096 (![0, 1] : Fin 2 → Fin S16384x4096.rank)
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  bcast_S_S16384x4096 : S_.BroadcastsInDim S16384x4096 (![] : Fin 0 → Fin S16384x4096.rank)
  dot_S16384x4096_S4096x4096_S16384x4096_1_0_0_1_n_n_wf : DotDims.WF S16384x4096 S4096x4096 S16384x4096 [1] [0] [0] [1] [] []

variable [Facts₀]

def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.Spec.lean ====
/-
  What both programs compute, as functions of the argument arrays over the extended reals.

  For x : [a, b], W : [b, n] and a bias vector of length n:
    * every row of x is divided by its Euclidean length plus a fixed stabilizer ε:
        u(p, q) = x(p, q) / (√(Σ_k x(p, k)²) + ε);
    * the result is relu(u · W + bias): out(p, q) = max(Σ_k u(p, k) · W(k, q) + bias(q), 0).
-/
import Idealize.ShloMosaic.PureOps.Ideal
import Idealize.ShloMosaic.Lib.ValueIdx

noncomputable section

open scoped BigOperators

namespace Cert.DenseSpec

open Idealize.ShloMosaic Idealize.ShloMosaic.ValueIdx

/-- The stabilizer added to a row's length: the value of the f32 word both programs carry. -/
def eps : EReal := Ideal.ofBits .f32 0x3727C5AC#32

/-- Entry (p, q) of x divided by the length of row p plus the stabilizer. -/
def unitRowsAt {a b : ℕ} (x : (⟨2, ![a, b]⟩ : Shape).Idx → EReal) (p : Fin a) (q : Fin b) : EReal :=
  Ideal.div (x (ix2 p q)) (Ideal.sqrt (∑ k : Fin b, x (ix2 p k) * x (ix2 p k)) + eps)

/-- The array of rows of x, each divided by its length plus the stabilizer. -/
def unitRows {a b : ℕ} (x : (⟨2, ![a, b]⟩ : Shape).Idx → EReal) : (⟨2, ![a, b]⟩ : Shape).Idx → EReal :=
  fun i => unitRowsAt x (i 0) (i 1)

theorem unitRows_apply {a b : ℕ} (x : (⟨2, ![a, b]⟩ : Shape).Idx → EReal) (p : Fin a) (q : Fin b) :
    unitRows x (ix2 p q) = unitRowsAt x p q := rfl

/-- Entry (p, q) of relu(A · W + bias). -/
def denseReluAt {a b n : ℕ} (A : (⟨2, ![a, b]⟩ : Shape).Idx → EReal) (W : (⟨2, ![b, n]⟩ : Shape).Idx → EReal)
    (bias : Fin n → EReal) (p : Fin a) (q : Fin n) : EReal :=
  max (∑ k : Fin b, A (ix2 p k) * W (ix2 k q) + bias q) 0

/-- relu(A · W + bias) as an array. -/
def denseRelu {a b n : ℕ} (A : (⟨2, ![a, b]⟩ : Shape).Idx → EReal) (W : (⟨2, ![b, n]⟩ : Shape).Idx → EReal)
    (bias : Fin n → EReal) : (⟨2, ![a, n]⟩ : Shape).Idx → EReal :=
  fun i => denseReluAt A W bias (i 0) (i 1)

theorem denseRelu_apply {a b n : ℕ} (A : (⟨2, ![a, b]⟩ : Shape).Idx → EReal) (W : (⟨2, ![b, n]⟩ : Shape).Idx → EReal)
    (bias : Fin n → EReal) (p : Fin a) (q : Fin n) : denseRelu A W bias (ix2 p q) = denseReluAt A W bias p q := rfl

/-- The whole result: relu(unitRows(x) · W + b). -/
def result {a b n : ℕ} (x : (⟨2, ![a, b]⟩ : Shape).Idx → EReal) (W : (⟨2, ![b, n]⟩ : Shape).Idx → EReal)
    (bias : (⟨1, ![n]⟩ : Shape).Idx → EReal) : (⟨2, ![a, n]⟩ : Shape).Idx → EReal :=
  denseRelu (unitRows x) W (fun q => bias (ix1 q))

end Cert.DenseSpec

end
-- ==== Proof.LibColumn.lean ====
/-
  General facts about rank-2 arrays and their rows and columns, stated for any extents.

  * A vector of length a viewed as a column [a, 1], read at (i, u), is the vector at i.
  * A column [a, 1] broadcast along b columns, read at (p, c), is the column's entry at row p.
  * At the ideal values, the sum of an [a, b] array along its second axis, read at p, is the sum over the b entries of
    row p.
  * At the ideal values, the host's sum of an [a, b] array along its second axis from an initial value, read at p, is
    the initial value plus the sum over the b entries of row p.
-/
import Idealize.ShloMosaic.PureOps.Ideal.Laws
import Idealize.ShloMosaic.Lib.ValueIdx
import Idealize.ShloMosaic.Lib.Pipeline.Value

noncomputable section

open scoped BigOperators

namespace Cert.LibColumn

open Idealize.ShloMosaic Idealize.ShloMosaic.ValueIdx

variable {α : Type}

/-- A vector of length `a` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along `b` columns reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The index a sum along the second axis inserts coordinate `k` into, from row `p`, is `(p, k)`. -/
theorem lift_row {a b : ℕ} (h : (⟨2, ![a, b]⟩ : Shape).Reduces [1] ⟨1, ![a]⟩) (p : Fin a) (k : Fin b) :
    h.lift (ix1 p) k = ix2 p k := by
  funext ax; apply Fin.ext
  match ax with
  | ⟨0, _⟩ => rfl
  | ⟨1, _⟩ => rfl

/-- At the ideal values a sum along the second axis of an `[a, b]` array, read at row `p`, is the sum of that row. -/
theorem rowSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) := by
  rw [Ideal.multiReduction_add_single]
  exact Finset.sum_congr rfl fun k _ => congrArg v (lift_row h p k)

/-- At the ideal values the host's sum along the second axis from an initial value, read at row `p`, is the initial value
    plus the sum of that row. -/
theorem hostRowSum_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (p : Fin a) :
    Ideal.hostReduceAdd h' x init (ix1 p) = init + ∑ k : Fin b, x (ix2 p k) := by
  rw [Ideal.hostReduceAdd_single h' h]
  exact congrArg (init + ·) (Finset.sum_congr rfl fun k _ => congrArg x (lift_row h p k))

end Cert.LibColumn

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.Blocks.lean ====
/-
  The two kernel bodies read at one entry of the block they store, at the ideal values.

  The first body stores, at (p, q) of its [1024, 4096] block, the loaded block's entry divided by the length of its row p
  plus the stabilizer (the narrowing to bf16 is the identity on the extended reals).
  The second body stores, at (p, q) of its [1024, 1024] block, max(Σ_k X(p, k) · W(k, q) + bias(0, q), 0): a product into the
  zero accumulator is the plain sum over the contracted coordinate.

  Each is then restated for a block that is a window into larger arrays: if the loaded blocks are the arrays read at rows
  r(p) and columns s(q), the stored entry is the specification's entry at (r(p), s(q)).
-/
import proofs.«167042_j7352984011100_1_alg».proof.Proof.Gen.KernelIdeal.Skeleton
import proofs.«167042_j7352984011100_1_alg».proof.Proof.Spec
import proofs.«167042_j7352984011100_1_alg».proof.Proof.LibColumn
import proofs.«167042_j7352984011100_1_alg».proof.Proof.LibMatmulPlain
import Idealize.ShloMosaic.PureOps.Ideal.Laws
import Idealize.ShloMosaic.Lib.ValueIdx
import Idealize.ShloMosaic.Lib.Pipeline.Value

noncomputable section

open scoped BigOperators

namespace Cert.KernelIdeal.Blocks

open Cert.KernelIdeal Cert.KernelIdeal.Gen Cert.DenseSpec
open Idealize.ShloMosaic Idealize.ShloMosaic.ValueIdx

/-- The first body's stored value at (p, q): the loaded entry over its row's length plus the stabilizer. -/
theorem normalize_apply (x0 : Vec Ideal S1024x4096 .f32) (p : Fin 1024) (q : Fin 4096) :
    k0_pay1 (F := Ideal) x0 (ix2 p q) = unitRowsAt x0 p q := by
  unfold k0_pay1 unitRowsAt eps
  show Ideal.div (x0 (ix2 p q)) (broadcastTo S1024x4096 _ broadcasts_S1024x1_S1024x4096 (ix2 p q)) = _
  rw [Cert.LibColumn.broadcastTo_a1_ab_apply]
  show Ideal.div (x0 (ix2 p q)) (Ideal.sqrt (shapeCast S1024x1 _ shapeCasts_S1024_S1024x1 (ix2 p (0 : Fin 1))) + _) = _
  rw [Cert.LibColumn.shapeCast_a_a1_apply]
  refine congrArg (fun z => Ideal.div (x0 (ix2 p q)) (Ideal.sqrt z + Ideal.ofBits .f32 0x3727C5AC#32)) ?_
  exact Cert.LibColumn.rowSum_apply (mulf x0 x0) _ _ _ _ p

/-- The second body's stored value at (p, q): the product's sum over the contracted coordinate plus the bias row's entry,
    against zero. -/
theorem dense_apply (x0 : FVec Ideal S1024x4096 .bf16) (x1 : FVec Ideal S4096x1024 .bf16) (x2 : FVec Ideal S1x1024 .f32)
    (p q : Fin 1024) :
    k1_pay1 (F := Ideal) x0 x1 x2 (ix2 p q) = denseReluAt x0 x1 (fun q => x2 (ix2 (0 : Fin 1) q)) p q := by
  unfold k1_pay1 denseReluAt
  simp only [shapeCast_self]
  show max (FloatOps.matmul (DotDims.plain 1024 4096 1024) none x0 x1 (constant ⟨2, ![1024, 1024]⟩ .f32 0x00000000#32) (ix2 p q)
      + broadcastTo ⟨2, ![1024, 1024]⟩ x2 broadcasts_S1x1024_S1024x1024 (ix2 p q)) (Ideal.ofBits .f32 0x00000000#32) = _
  rw [Cert.LibMatmulPlain.matmul_plain_zero_apply, Cert.LibMatmulPlain.rowBroadcast_apply, Ideal.ofBits_zero_f32]

/-- The first body on a block that is rows r(p) of a larger array X: the stored entry is the specification's at
    (r(p), q). -/
theorem normalize_window (x0 : Vec Ideal S1024x4096 .f32) (X : S16384x4096.Idx → EReal) (r : Fin 1024 → Fin 16384)
    (hx : ∀ p k, x0 (ix2 p k) = X (ix2 (r p) k)) (p : Fin 1024) (q : Fin 4096) :
    k0_pay1 (F := Ideal) x0 (ix2 p q) = unitRows X (ix2 (r p) q) := by
  rw [normalize_apply, unitRows_apply]
  unfold unitRowsAt
  simp only [hx]

/-- The second body on blocks that are rows r(p) of A, columns s(q) of W and entries s(q) of the bias: the stored entry
    is the specification's at (r(p), s(q)). -/
theorem dense_window (x0 : FVec Ideal S1024x4096 .bf16) (x1 : FVec Ideal S4096x1024 .bf16) (x2 : FVec Ideal S1x1024 .f32)
    (A : S16384x4096.Idx → EReal) (W : S4096x4096.Idx → EReal) (bias : Fin 4096 → EReal)
    (r : Fin 1024 → Fin 16384) (s : Fin 1024 → Fin 4096)
    (h0 : ∀ p k, x0 (ix2 p k) = A (ix2 (r p) k)) (h1 : ∀ k q, x1 (ix2 k q) = W (ix2 k (s q)))
    (h2 : ∀ q, x2 (ix2 (0 : Fin 1) q) = bias (s q)) (p q : Fin 1024) :
    k1_pay1 (F := Ideal) x0 x1 x2 (ix2 p q) = denseRelu A W bias (ix2 (r p) (s q)) := by
  rw [dense_apply, denseRelu_apply]
  unfold denseReluAt
  simp only [h0, h1, h2]

end Cert.KernelIdeal.Blocks

end
-- ==== Proof.Arrays.lean ====
/-
  From blocks to arrays, for each of the two pallas_calls, at any contents V the call is entered with.

  First call: grid point t (of 16) reads rows 1024·t … 1024·t + 1023 of x and writes the same rows of its output; the
  blocks tile the [16384, 4096] output, so after the call the output array is the unit-rows array of x.
  Second call: grid point t (of 64 = 16 × 4) reads rows 1024·(t / 4) … of A, columns 1024·(t mod 4) … of W and of the
  bias row, and writes the [1024, 1024] block at block row t / 4, block column t mod 4; the 64 blocks tile the
  [16384, 4096] output, so after the call the output array is relu(A · W + bias).
-/
import proofs.«167042_j7352984011100_1_alg».proof.Proof.Gen.KernelIdeal.Frame
import proofs.«167042_j7352984011100_1_alg».proof.Proof.Blocks

set_option maxRecDepth 16384

noncomputable section

open scoped BigOperators

namespace Cert.KernelIdeal.Arrays

open Cert.KernelIdeal Cert.KernelIdeal.Gen Cert.KernelIdeal.Blocks Cert.DenseSpec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-! ## The first call -/

/-- Both windows of the first call sit, at point t, at block row t and block column 0. -/
theorem blockIndex0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- Row p of point t's block is row 1024·t + p of the array. -/
def row0 (t : Fin cfg0.N) (p : Fin 1024) : Fin 16384 :=
  ⟨t.val * 1024 + p.val, by have := lt_of_lt_of_eq t.isLt N_0; have := p.isLt; omega⟩

theorem emb0_0 (t : Fin cfg0.N) (p : Fin 1024) (q : Fin 4096) :
    ((cfg0.win 0).blk t).view.emb (ix2 p q) = ix2 (row0 t p) q := by
  obtain ⟨e0, e1, -, -⟩ := blockIndex0 t
  funext a; apply Fin.ext
  match a with
  | ⟨0, _⟩ => show win0_0.index t (0 : Fin 2) * 1024 + 1 * p.val = t.val * 1024 + p.val; omega
  | ⟨1, _⟩ => show win0_0.index t (1 : Fin 2) * 4096 + 1 * q.val = q.val; omega

theorem emb0_1 (t : Fin cfg0.N) (p : Fin 1024) (q : Fin 4096) :
    ((cfg0.win 1).blk t).view.emb (ix2 p q) = ix2 (row0 t p) q := by
  obtain ⟨-, -, e0, e1⟩ := blockIndex0 t
  funext a; apply Fin.ext
  match a with
  | ⟨0, _⟩ => show win0_1.index t (0 : Fin 2) * 1024 + 1 * p.val = t.val * 1024 + p.val; omega
  | ⟨1, _⟩ => show win0_1.index t (1 : Fin 2) * 4096 + 1 * q.val = q.val; omega

/-- What point t writes back is block t of the unit-rows array of x as the call finds it. -/
theorem flushed0 (c : Dev nD) (t : Fin cfg0.N) :
    (dat0 V c).flushed 1 t = ((cfg0.win 1).blk t).view.read (Elt Ideal) (unitRows (a := 16384) (b := 4096) (V c main_arg0)) := by
  show (cfg0.win 1).cut (grid0.coords t) ((dat0 V c).after 1 t) = _
  rw [after0_1]
  unfold out0_1
  rw [View.canon_unit_zero zeroOffsets]
  simp only [View.ld_unit_zero (S := S1024x4096) zeroOffsets]
  funext j
  obtain ⟨p, q, rfl⟩ : ∃ (p : Fin 1024) (q : Fin 4096), j = ix2 p q := ⟨j 0, j 1, eq_ix2 j⟩
  show k0_pay1 (F := Ideal) (iblk0 V c 0 t) (ix2 p q)
    = unitRows (a := 16384) (b := 4096) (V c main_arg0) (((cfg0.win 1).blk t).view.emb (ix2 p q))
  rw [emb0_1]
  refine normalize_window (iblk0 V c 0 t) (V c main_arg0) (row0 t) (fun p k => ?_) p q
  show V c main_arg0 (((cfg0.win 0).blk t).view.emb (ix2 p k)) = _
  rw [emb0_0]

theorem mem_block0 (t : Fin cfg0.N) (i : S16384x4096.Idx) :
    i ∈ ((cfg0.win 1).blk t).view.set ↔ ∀ a : Fin 2, win0_1.index t a * S1024x4096.size a ≤ (i a).val
      ∧ (i a).val < win0_1.index t a * S1024x4096.size a + S1024x4096.size a := by
  show i ∈ ((View.whole main_v0).slice (win0_1.rect t)).set ↔ _
  rw [View.set_slice_whole, Rect.mem_set_unit]
  exact Iff.rfl

/-- Every entry of the output lies in the block of point (row / 1024). -/
theorem cover0 (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  have hN : (i 0).val / 1024 < cfg0.N := by rw [show cfg0.N = 16 from N_0]; omega
  obtain ⟨-, -, e0, e1⟩ := blockIndex0 ⟨(i 0).val / 1024, hN⟩
  refine ⟨⟨(i 0).val / 1024, hN⟩, flush0_1 _, ?_⟩
  rw [mem_block0]
  intro a
  match a with
  | ⟨0, _⟩ =>
    show win0_1.index ⟨(i 0).val / 1024, hN⟩ (0 : Fin 2) * 1024 ≤ (i 0).val
      ∧ (i 0).val < win0_1.index ⟨(i 0).val / 1024, hN⟩ (0 : Fin 2) * 1024 + 1024
    rw [e0]; show (i 0).val / 1024 * 1024 ≤ (i 0).val ∧ (i 0).val < (i 0).val / 1024 * 1024 + 1024; omega
  | ⟨1, _⟩ =>
    show win0_1.index ⟨(i 0).val / 1024, hN⟩ (1 : Fin 2) * 4096 ≤ (i 1).val
      ∧ (i 1).val < win0_1.index ⟨(i 0).val / 1024, hN⟩ (1 : Fin 2) * 4096 + 4096
    rw [e1]; omega

/-- After the first call its output array is the unit-rows array of x as the call found it. -/
theorem final0 (c : Dev nD) : (dat0 V c).arrAt 1 cfg0.N = unitRows (a := 16384) (b := 4096) (V c main_arg0) :=
  (dat0 V c).arrAt_eq_of_cover 1 _ (fun t _ => flushed0 V c t) cover0

end Cert.KernelIdeal.Arrays

end
-- ==== Proof.DenseArray.lean ====
/-
  From blocks to the array, for the second pallas_call, at any contents V the call is entered with.

  Grid point t (of 64 = 16 × 4) reads rows 1024·(t / 4) … 1024·(t / 4) + 1023 of A (its first operand), columns
  1024·(t mod 4) … of W and of the one-row bias, and writes the [1024, 1024] block at block row t / 4 and block column
  t mod 4. The 64 blocks tile the [16384, 4096] output, so after the call the output array is relu(A · W + bias).
-/
import proofs.«167042_j7352984011100_1_alg».proof.Proof.Gen.KernelIdeal.Frame
import proofs.«167042_j7352984011100_1_alg».proof.Proof.Blocks

set_option maxRecDepth 16384

noncomputable section

open scoped BigOperators

namespace Cert.KernelIdeal.DenseArray

open Cert.KernelIdeal Cert.KernelIdeal.Gen Cert.KernelIdeal.Blocks Cert.DenseSpec
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem zeroOffsets : (![0, 0] : Fin 2 → Nat) = fun _ => 0 := funext fun a => by fin_cases a <;> rfl

/-- Where the four windows sit at point t: A's at block row t / 4; W's and the bias row's at block column t mod 4; the
    output's at block row t / 4 and block column t mod 4. -/
theorem blockIndex1 : ∀ t : Fin cfg1.N,
    win1_0.index t (0 : Fin 2) = t.val / 4 ∧ win1_0.index t (1 : Fin 2) = 0
    ∧ win1_1.index t (0 : Fin 2) = 0 ∧ win1_1.index t (1 : Fin 2) = t.val % 4
    ∧ win1_2.index t (0 : Fin 2) = 0 ∧ win1_2.index t (1 : Fin 2) = t.val % 4
    ∧ win1_3.index t (0 : Fin 2) = t.val / 4 ∧ win1_3.index t (1 : Fin 2) = t.val % 4 :=
  (by decide +kernel : ∀ t : Fin grid1.N, _)

/-- Row p of point t's blocks is row 1024·(t / 4) + p of the arrays. -/
def row1 (t : Fin cfg1.N) (p : Fin 1024) : Fin 16384 :=
  ⟨t.val / 4 * 1024 + p.val, by have := lt_of_lt_of_eq t.isLt N_1; have := p.isLt; omega⟩

/-- Column q of point t's blocks is column 1024·(t mod 4) + q of the arrays. -/
def col1 (t : Fin cfg1.N) (q : Fin 1024) : Fin 4096 :=
  ⟨t.val % 4 * 1024 + q.val, by have := q.isLt; omega⟩

theorem emb1_0 (t : Fin cfg1.N) (p : Fin 1024) (k : Fin 4096) :
    ((cfg1.win 0).blk t).view.emb (ix2 p k) = ix2 (row1 t p) k := by
  obtain ⟨e0, e1, -⟩ := blockIndex1 t
  funext a; apply Fin.ext
  match a with
  | ⟨0, _⟩ => show win1_0.index t (0 : Fin 2) * 1024 + 1 * p.val = t.val / 4 * 1024 + p.val; omega
  | ⟨1, _⟩ => show win1_0.index t (1 : Fin 2) * 4096 + 1 * k.val = k.val; omega

theorem emb1_1 (t : Fin cfg1.N) (k : Fin 4096) (q : Fin 1024) :
    ((cfg1.win 1).blk t).view.emb (ix2 k q) = ix2 k (col1 t q) := by
  obtain ⟨-, -, e0, e1, -⟩ := blockIndex1 t
  funext a; apply Fin.ext
  match a with
  | ⟨0, _⟩ => show win1_1.index t (0 : Fin 2) * 4096 + 1 * k.val = k.val; omega
  | ⟨1, _⟩ => show win1_1.index t (1 : Fin 2) * 1024 + 1 * q.val = t.val % 4 * 1024 + q.val; omega

theorem emb1_2 (t : Fin cfg1.N) (q : Fin 1024) :
    ((cfg1.win 2).blk t).view.emb (ix2 (0 : Fin 1) q) = ix2 (0 : Fin 1) (col1 t q) := by
  obtain ⟨-, -, -, -, e0, e1, -⟩ := blockIndex1 t
  funext a; apply Fin.ext
  match a with
  | ⟨0, _⟩ => show win1_2.index t (0 : Fin 2) * 1 + 1 * 0 = 0; omega
  | ⟨1, _⟩ => show win1_2.index t (1 : Fin 2) * 1024 + 1 * q.val = t.val % 4 * 1024 + q.val; omega

theorem emb1_3 (t : Fin cfg1.N) (p q : Fin 1024) :
    ((cfg1.win 3).blk t).view.emb (ix2 p q) = ix2 (row1 t p) (col1 t q) := by
  obtain ⟨-, -, -, -, -, -, e0, e1⟩ := blockIndex1 t
  funext a; apply Fin.ext
  match a with
  | ⟨0, _⟩ => show win1_3.index t (0 : Fin 2) * 1024 + 1 * p.val = t.val / 4 * 1024 + p.val; omega
  | ⟨1, _⟩ => show win1_3.index t (1 : Fin 2) * 1024 + 1 * q.val = t.val % 4 * 1024 + q.val; omega

/-- The array the second call leaves in its output, from the three arrays it is entered with. -/
abbrev denseOf (c : Dev nD) : S16384x4096.Idx → EReal :=
  denseRelu (a := 16384) (b := 4096) (n := 4096) (V c main_v0) (V c main_v1) (fun q => V c main_v2 (ix2 (0 : Fin 1) q))

/-- What point t writes back is block t of relu(A · W + bias) of the arrays as the call finds them. -/
theorem flushed1 (c : Dev nD) (t : Fin cfg1.N) :
    (dat1 V c).flushed 3 t = ((cfg1.win 3).blk t).view.read (Elt Ideal) (denseOf V c) := by
  show (cfg1.win 3).cut (grid1.coords t) ((dat1 V c).after 3 t) = _
  rw [after1_3]
  unfold out1_3
  rw [View.canon_unit_zero zeroOffsets]
  simp only [View.ld_unit_zero (S := S1024x4096) zeroOffsets, View.ld_unit_zero (S := S4096x1024) zeroOffsets,
    View.ld_unit_zero (S := S1x1024) zeroOffsets]
  funext j
  obtain ⟨p, q, rfl⟩ : ∃ (p q : Fin 1024), j = ix2 p q := ⟨j 0, j 1, eq_ix2 j⟩
  show k1_pay1 (F := Ideal) (iblk1 V c 0 t) (iblk1 V c 1 t) (iblk1 V c 2 t) (ix2 p q)
    = denseOf V c (((cfg1.win 3).blk t).view.emb (ix2 p q))
  rw [emb1_3]
  refine dense_window (iblk1 V c 0 t) (iblk1 V c 1 t) (iblk1 V c 2 t) (V c main_v0) (V c main_v1)
    (fun q => V c main_v2 (ix2 (0 : Fin 1) q)) (row1 t) (col1 t) (fun p k => ?_) (fun k q => ?_) (fun q => ?_) p q
  · show V c main_v0 (((cfg1.win 0).blk t).view.emb (ix2 p k)) = _
    rw [emb1_0]
  · show V c main_v1 (((cfg1.win 1).blk t).view.emb (ix2 k q)) = _
    rw [emb1_1]
  · show V c main_v2 (((cfg1.win 2).blk t).view.emb (ix2 (0 : Fin 1) q)) = _
    rw [emb1_2]

theorem mem_block1 (t : Fin cfg1.N) (i : S16384x4096.Idx) :
    i ∈ ((cfg1.win 3).blk t).view.set ↔ ∀ a : Fin 2, win1_3.index t a * S1024x1024.size a ≤ (i a).val
      ∧ (i a).val < win1_3.index t a * S1024x1024.size a + S1024x1024.size a := by
  show i ∈ ((View.whole main_v3).slice (win1_3.rect t)).set ↔ _
  rw [View.set_slice_whole, Rect.mem_set_unit]
  exact Iff.rfl

/-- Every entry of the output lies in the block of point 4·(row / 1024) + column / 1024. -/
theorem cover1 (i : S16384x4096.Idx) :
    ∃ t : Fin cfg1.N, (cfg1.win 3).flush t = true ∧ i ∈ ((cfg1.win 3).blk t).view.set := by
  have hi0 : (i 0).val < 16384 := (i 0).isLt
  have hi1 : (i 1).val < 4096 := (i 1).isLt
  have hN : (i 0).val / 1024 * 4 + (i 1).val / 1024 < cfg1.N := by rw [show cfg1.N = 64 from N_1]; omega
  obtain ⟨-, -, -, -, -, -, e0, e1⟩ := blockIndex1 ⟨(i 0).val / 1024 * 4 + (i 1).val / 1024, hN⟩
  refine ⟨⟨(i 0).val / 1024 * 4 + (i 1).val / 1024, hN⟩, flush1_3 _, ?_⟩
  rw [mem_block1]
  intro a
  match a with
  | ⟨0, _⟩ =>
    show win1_3.index ⟨(i 0).val / 1024 * 4 + (i 1).val / 1024, hN⟩ (0 : Fin 2) * 1024 ≤ (i 0).val
      ∧ (i 0).val < win1_3.index ⟨(i 0).val / 1024 * 4 + (i 1).val / 1024, hN⟩ (0 : Fin 2) * 1024 + 1024
    rw [e0]
    show ((i 0).val / 1024 * 4 + (i 1).val / 1024) / 4 * 1024 ≤ (i 0).val
      ∧ (i 0).val < ((i 0).val / 1024 * 4 + (i 1).val / 1024) / 4 * 1024 + 1024
    omega
  | ⟨1, _⟩ =>
    show win1_3.index ⟨(i 0).val / 1024 * 4 + (i 1).val / 1024, hN⟩ (1 : Fin 2) * 1024 ≤ (i 1).val
      ∧ (i 1).val < win1_3.index ⟨(i 0).val / 1024 * 4 + (i 1).val / 1024, hN⟩ (1 : Fin 2) * 1024 + 1024
    rw [e1]
    show ((i 0).val / 1024 * 4 + (i 1).val / 1024) % 4 * 1024 ≤ (i 1).val
      ∧ (i 1).val < ((i 0).val / 1024 * 4 + (i 1).val / 1024) % 4 * 1024 + 1024
    omega

/-- After the second call its output array is relu(A · W + bias) of the arrays the call found. -/
theorem final1 (c : Dev nD) : (dat1 V c).arrAt 3 cfg1.N = denseOf V c :=
  (dat1 V c).arrAt_eq_of_cover 3 _ (fun t _ => flushed1 V c t) cover1

end Cert.KernelIdeal.DenseArray

end
-- ==== Proof.KernelValue.lean ====
/-
  The kernel program's result as a function of its three arguments.

  Between the two pallas_calls the host narrows W to bf16 (the identity on the extended reals) and views the bias vector
  as one row; neither touches the first call's output. So the second call is entered with A = the unit-rows array of x
  (what the first call left), W itself, and the bias as a [1, 4096] row, and it leaves relu(A · W + bias) in the result
  array: the specification's array of x, W and the bias.
-/
import proofs.«167042_j7352984011100_1_alg».proof.Proof.KernelRun
import proofs.«167042_j7352984011100_1_alg».proof.Proof.Arrays
import proofs.«167042_j7352984011100_1_alg».proof.Proof.DenseArray
import Idealize.ShloMosaic.Lib.ValueLayout
import Idealize.ShloMosaic.Lib.StableHlo.Run

set_option maxRecDepth 16384

noncomputable section

open scoped BigOperators

namespace Cert.KernelIdeal.Result

open Cert.KernelIdeal Cert.KernelIdeal.Gen Cert.DenseSpec
open Idealize.ShloMosaic Idealize.ShloMosaic.TcCoe Idealize.ShloMosaic.ValueIdx Idealize.ShloMosaic.StableHlo
open Idealize.SL.Sem

variable (m : (ℓ : Loc nD τ sig) → Buf (Elt Ideal) ℓ) (ρ : Dev nD → PrngReg)

/-- The second call's first operand is what the first call left: the unit-rows array of x. -/
theorem entry_v0 (c : Dev nD) :
    (V2 m ρ c main_v0 : S16384x4096.Idx → EReal) = unitRows (a := 16384) (b := 4096) (m ((c : Thread nD τ).loc main_arg0)) := by
  have h : V2 m ρ c main_v0 = (dat0 (V0 m ρ) c).arrAt 1 cfg0.N := by
    show StableHlo.after hostOps1 (W1 m ρ c) (Proc.devRef .tc main_v0) = _
    after_results
    exact W1_arr m ρ c 1
  rw [h, Arrays.final0]

/-- The second call's second operand is W: the narrowing is the identity on the extended reals, and the first call does
    not write W. -/
theorem entry_v1 (c : Dev nD) :
    (V2 m ρ c main_v1 : S4096x4096.Idx → EReal) = m ((c : Thread nD τ).loc main_arg1) := by
  show StableHlo.after hostOps1 (W1 m ρ c) (Proc.devRef .tc main_v1) = _
  after_results
  rw [W1_of_ne m ρ c main_arg1 (by decide)]
  rfl

/-- The second call's third operand is the bias vector viewed as one row. -/
theorem entry_v2 (c : Dev nD) (q : Fin 4096) :
    (V2 m ρ c main_v2 : S1x4096.Idx → EReal) (ix2 (0 : Fin 1) q)
      = (m ((c : Thread nD τ).loc main_arg2) : S4096.Idx → EReal) (ix1 q) := by
  have h : (V2 m ρ c main_v2 : S1x4096.Idx → EReal)
      = shapeCast S1x4096 (m ((c : Thread nD τ).loc main_arg2) : S4096.Idx → EReal) shapeCasts_S4096_S1x4096 := by
    show StableHlo.after hostOps1 (W1 m ρ c) (Proc.devRef .tc main_v2) = _
    after_results
    rw [W1_of_ne m ρ c main_arg2 (by decide)]
    rfl
  rw [h]
  exact shapeCast_a_1a_apply _ _ 0 q

/-- The result array at the last boundary is the specification's array of the three arguments. -/
theorem result_eq (c : Dev nD) :
    (W3 m ρ c (Proc.devRef .tc main_v3) : S16384x4096.Idx → EReal)
      = result (a := 16384) (b := 4096) (n := 4096) (m ((c : Thread nD τ).loc main_arg0))
          (m ((c : Thread nD τ).loc main_arg1)) (m ((c : Thread nD τ).loc main_arg2)) := by
  have h : W3 m ρ c (Proc.devRef .tc main_v3) = (dat1 (V2 m ρ) c).arrAt 3 cfg1.N := W3_arr m ρ c 3
  rw [h, DenseArray.final1]
  have e2 : (fun q : Fin 4096 => (V2 m ρ c main_v2 : S1x4096.Idx → EReal) (ix2 (0 : Fin 1) q))
      = fun q => (m ((c : Thread nD τ).loc main_arg2) : S4096.Idx → EReal) (ix1 q) := funext (entry_v2 m ρ c)
  show denseRelu (a := 16384) (b := 4096) (n := 4096) (V2 m ρ c main_v0 : S16384x4096.Idx → EReal)
      (V2 m ρ c main_v1 : S4096x4096.Idx → EReal) (fun q : Fin 4096 => (V2 m ρ c main_v2 : S1x4096.Idx → EReal) (ix2 (0 : Fin 1) q)) = _
  rw [entry_v0, entry_v1, e2]
  rfl

/-- Every weakly fair execution of the kernel program terminates without a fault with the result array at the
    specification's array of the arguments, the arguments unchanged. -/
theorem run : θ_run defs (onTc (τ := τ) (main (F := Ideal))) ⟨m, fun _ => 0, ρ⟩ (fun r => ∀ c : Dev nD,
      r.2.mem ((c.tc : Thread nD τ).loc main_v3)
        = result (a := 16384) (b := 4096) (n := 4096) (m ((c : Thread nD τ).loc main_arg0))
            (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨(h c).1.trans (result_eq m ρ c), (h c).2⟩) (Cert.KernelIdeal.Run.run_main m ρ)

end Cert.KernelIdeal.Result

end
-- ==== Proof.RefValue.lean ====
/-
  The reference's result, read one operation at a time, is the specification's array.

  Row p's sum of squares is 0 + Σ_k x(p, k)², its length plus the stabilizer divides the row; the product with W is the sum
  over the contracted coordinate; the bias vector is broadcast along the rows; relu is the maximum with 0.
-/
import proofs.«167042_j7352984011100_1_alg».proof.Proof.Gen.ReferenceIdeal.Run
import proofs.«167042_j7352984011100_1_alg».proof.Proof.Gen.ReferenceIdeal.Read
import proofs.«167042_j7352984011100_1_alg».proof.Proof.Spec

noncomputable section

open scoped BigOperators

namespace Cert.ReferenceIdeal.RefValue

open Cert.ReferenceIdeal Cert.ReferenceIdeal.Read Cert.DenseSpec
open Idealize.ShloMosaic Idealize.ShloMosaic.ValueIdx

/-- The reference's row sums of squares. -/
theorem rowSq_eq (x : (⟨S16384x4096, .f32⟩ : BufTy).Contents (Elt Ideal)) (p : Fin 16384) :
    val_main_v1 (F := Ideal) x (ix1 p) = ∑ k : Fin 4096, x (ix2 p k) * x (ix2 p k) := by
  rw [val_main_v1_apply, val_main_cst_apply]
  have e : ∀ k, idx_main_v1 (ix1 p) k = ix2 p k := fun k =>
    funext fun a => Fin.ext (by match a with | ⟨0, _⟩ => rfl | ⟨1, _⟩ => rfl)
  simp only [e, val_main_v0_apply, Ideal.ofBits_def, Ideal.ofBits_zero_f32, Ideal.mulf_def, zero_add]

/-- The reference's normalized entry. -/
theorem unit_eq (x : (⟨S16384x4096, .f32⟩ : BufTy).Contents (Elt Ideal)) (p : Fin 16384) (k : Fin 4096) :
    val_main_v7 (F := Ideal) x (ix2 p k) = unitRowsAt x p k := by
  rw [val_main_v7_apply, val_main_v6_apply, val_main_v5_apply, val_main_v3_apply, val_main_v2_apply, val_main_v4_apply,
    val_main_cst_0_apply]
  have e : idx_main_v2 (idx_main_v6 (ix2 p k)) = ix1 p := funext fun a => Fin.ext (by match a with | ⟨0, _⟩ => rfl)
  rw [e, rowSq_eq]
  rfl

/-- The reference's result is the specification's array of the three arguments. -/
theorem reference_eq (x : (⟨S16384x4096, .f32⟩ : BufTy).Contents (Elt Ideal)) (W : (⟨S4096x4096, .f32⟩ : BufTy).Contents (Elt Ideal))
    (b : (⟨S4096, .f32⟩ : BufTy).Contents (Elt Ideal)) :
    val_main_v12 (F := Ideal) x W b = result (a := 16384) (b := 4096) (n := 4096) x W b := by
  funext i
  obtain ⟨p, q, rfl⟩ : ∃ (p : Fin 16384) (q : Fin 4096), i = ix2 p q := ⟨i 0, i 1, eq_ix2 i⟩
  rw [val_main_v12_apply, val_main_v11_apply, val_main_v8_apply, val_main_v10_apply, val_main_v9_apply, val_main_call0_v0_apply,
    val_main_call0_cst_apply]
  have hl : ∀ k, lidx_main_v8 (ix2 p q) k = ix2 p k := fun k =>
    funext fun a => Fin.ext (by match a with | ⟨0, _⟩ => rfl | ⟨1, _⟩ => rfl)
  have hr : ∀ k, ridx_main_v8 (ix2 p q) k = ix2 k q := fun k =>
    funext fun a => Fin.ext (by match a with | ⟨0, _⟩ => rfl | ⟨1, _⟩ => rfl)
  have hb : idx_main_v9 (idx_main_v10 (ix2 p q)) = ix1 q := funext fun a => Fin.ext (by match a with | ⟨0, _⟩ => rfl)
  simp only [hl, hr, hb, unit_eq, Ideal.ofBits_def, Ideal.ofBits_zero_f32]
  rfl

end Cert.ReferenceIdeal.RefValue

end
-- ==== Proof.lean ====
/-
  The kernel normalizes every row of x to unit length (dividing by the row's Euclidean length plus a stabilizer) in a first
  pallas_call, narrows the result and W to bf16, and in a second pallas_call computes relu(u · W + b) block by block; the
  reference computes the same expression with whole-array operations.

  At the ideal values a change of float format is the identity, a matrix product into a zero accumulator and the host's
  dot_general are the same sum over the contracted coordinate, a lane sum and the host's reduce are the same row sum (the
  host's from the initial value 0), and both programs carry the same stabilizer word. So both results are, entry by
  entry,
      max(Σ_k [x(p, k) / (√(Σ_j x(p, j)²) + ε)] · W(k, q) + b(q), 0)
  with the sums over the same index sets: no algebraic law beyond 0 + s = s is used, and finiteness of the inputs plays
  no part.

  The kernel program's run (two pallas_calls with host operations between them) is read block by block: each call's
  output blocks tile its output array, so the array after the call is one function of the arrays the call was entered with.
  The reference's run is read operation by operation. The idealization rewrote nothing, so it preserves the kernel
  trivially.
-/
import proofs.«167042_j7352984011100_1_alg».proof.Defs
import proofs.«167042_j7352984011100_1_alg».proof.Proof.Gen.Kernel
import proofs.«167042_j7352984011100_1_alg».proof.Proof.Gen.Kernel.Skeleton
import proofs.«167042_j7352984011100_1_alg».proof.Proof.Gen.Kernel.Launch
import proofs.«167042_j7352984011100_1_alg».proof.Proof.Gen.Kernel.Points
import proofs.«167042_j7352984011100_1_alg».proof.Proof.Gen.Kernel.Frame
import proofs.«167042_j7352984011100_1_alg».proof.Proof.Gen.KernelIdeal
import proofs.«167042_j7352984011100_1_alg».proof.Proof.Gen.KernelIdeal.Skeleton
import proofs.«167042_j7352984011100_1_alg».proof.Proof.Gen.KernelIdeal.Launch
import proofs.«167042_j7352984011100_1_alg».proof.Proof.Gen.KernelIdeal.Points
import proofs.«167042_j7352984011100_1_alg».proof.Proof.Gen.KernelIdeal.Frame
import proofs.«167042_j7352984011100_1_alg».proof.Proof.Gen.ReferenceIdeal
import proofs.«167042_j7352984011100_1_alg».proof.Proof.Gen.ReferenceIdeal.Run
import proofs.«167042_j7352984011100_1_alg».proof.Proof.Gen.ReferenceIdeal.Read
import proofs.«167042_j7352984011100_1_alg».proof.Proof.Gen.Pre_finite_inputs
import proofs.«167042_j7352984011100_1_alg».proof.Proof.KernelValue
import proofs.«167042_j7352984011100_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the specification's array of the (agreeing) arguments. -/
theorem algebraic : Cert.algebraic_KernelIdeal_ReferenceIdeal := by
  intro m ρ m' ρ' _ hagree
  refine ⟨_, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.reference_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
